-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S3200000 : Shape := ⟨1, ![3200000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel

variable [Facts]

def fn {F : FTy → Type} [FloatOps F] (main_arg0 : FVec F S100000x2 .f32) (main_arg1 : FVec F S100000x2 .f32) (main_arg2 : IVec S3200000 32) (main_arg3 : IVec S3200000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  main_v8
-- ==== Kernel.lean ====
abbrev S100000x2 : Shape := ⟨2, ![100000, 2]⟩
abbrev S3200000 : Shape := ⟨1, ![3200000]⟩
abbrev S100000x1 : Shape := ⟨2, ![100000, 1]⟩
abbrev S100000 : Shape := ⟨1, ![100000]⟩
abbrev S_ : Shape := ⟨0, ![]⟩
abbrev S3200000x1 : Shape := ⟨2, ![3200000, 1]⟩
abbrev S25000x128 : Shape := ⟨2, ![25000, 128]⟩
abbrev S1000x128 : Shape := ⟨2, ![1000, 128]⟩

abbrev nBuf : Space → Nat
  | .hbm => 67
  | .vmem => 12
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S3200000, .i32⟩
  | .hbm, ⟨3, _⟩ => ⟨S3200000, .i32⟩
  | .hbm, ⟨4, _⟩ => ⟨S100000x1, .f32⟩
  | .hbm, ⟨5, _⟩ => ⟨S100000, .f32⟩
  | .hbm, ⟨6, _⟩ => ⟨S100000x1, .f32⟩
  | .hbm, ⟨7, _⟩ => ⟨S100000, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000, .f32⟩
  | .hbm, ⟨17, _⟩ => ⟨S25000x128, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000, .f32⟩
  | .hbm, ⟨27, _⟩ => ⟨S25000x128, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000, .f32⟩
  | .hbm, ⟨37, _⟩ => ⟨S25000x128, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S25000x128, .f32⟩
  | .hbm, ⟨48, _⟩ => ⟨S25000x128, .f32⟩
  | .hbm, ⟨49, _⟩ => ⟨S25000x128, .f32⟩
  | .hbm, ⟨50, _⟩ => ⟨S3200000, .f32⟩
  | .hbm, ⟨51, _⟩ => ⟨S3200000, .f32⟩
  | .hbm, ⟨52, _⟩ => ⟨S_, .f32⟩
  | .hbm, ⟨53, _⟩ => ⟨S100000, .f32⟩
  | .hbm, ⟨54, _⟩ => ⟨S3200000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S3200000x1, .i32⟩
  | .hbm, ⟨59, _⟩ => ⟨S100000, .f32⟩
  | .hbm, ⟨60, _⟩ => ⟨S100000x1, .f32⟩
  | .hbm, ⟨61, _⟩ => ⟨S100000x1, .f32⟩
  | .hbm, ⟨62, _⟩ => ⟨S100000x2, .f32⟩
  | .hbm, ⟨63, _⟩ => ⟨S_, .f32⟩
  | .hbm, ⟨64, _⟩ => ⟨S100000x2, .f32⟩
  | .hbm, ⟨65, _⟩ => ⟨S100000x2, .f32⟩
  | .hbm, ⟨66, _⟩ => ⟨S100000x2, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S3200000_S25000x128 : S3200000.ShapeCasts S25000x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  shapeCasts_S25000x128_S3200000 : S25000x128.ShapeCasts S3200000
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S_S100000x2 : S_.BroadcastsInDim S100000x2 (![] : Fin 0 → Fin S100000x2.rank)
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S25000x128.size a
  hwx0_0 : ∀ i : grid0.Coords, EltTy.bits .f32 = 32 ∨ (Rect.block (s := S25000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S25000x128.size a
  hwx0_1 : ∀ i : grid0.Coords, EltTy.bits .f32 = 32 ∨ (Rect.block (s := S25000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S25000x128.size a
  hwx0_2 : ∀ i : grid0.Coords, EltTy.bits .f32 = 32 ∨ (Rect.block (s := S25000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S25000x128.size a
  hwx0_3 : ∀ i : grid0.Coords, EltTy.bits .f32 = 32 ∨ (Rect.block (s := S25000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S25000x128.size a
  hwx0_4 : ∀ i : grid0.Coords, EltTy.bits .f32 = 32 ∨ (Rect.block (s := S25000x128) S1000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x128.size a ≤ S25000x128.size a
  hwx0_5 : ∀ i : grid0.Coords, EltTy.bits .f32 = 32 ∨ (Rect.block (s := S25000x128) S1000x128.size (cc0_transform_5 i) (hinb0_5 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_v11) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36_0) S1000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v36_1) S1000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x2 : Shape := ⟨2, ![100000, 2]⟩
abbrev S3200000 : Shape := ⟨1, ![3200000]⟩
abbrev S_ : Shape := ⟨0, ![]⟩
abbrev S3200000x1 : Shape := ⟨2, ![3200000, 1]⟩
abbrev S3200000x2 : Shape := ⟨2, ![3200000, 2]⟩

abbrev nBuf : Space → Nat
  | .hbm => 49
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S3200000, .i32⟩
  | .hbm, ⟨3, _⟩ => ⟨S3200000, .i32⟩
  | .hbm, ⟨4, _⟩ => ⟨S_, .i32⟩
  | .hbm, ⟨5, _⟩ => ⟨S3200000, .i32⟩
  | .hbm, ⟨6, _⟩ => ⟨S3200000, .i1⟩
  | .hbm, ⟨7, _⟩ => ⟨S_, .i32⟩
  | .hbm, ⟨8, _⟩ => ⟨S3200000, .i32⟩
  | .hbm, ⟨9, _⟩ => ⟨S3200000, .i32⟩
  | .hbm, ⟨10, _⟩ => ⟨S3200000, .i32⟩
  | .hbm, ⟨11, _⟩ => ⟨S3200000x1, .i32⟩
  | .hbm, ⟨12, _⟩ => ⟨S3200000x2, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x2, .f32⟩
  | .hbm, ⟨22, _⟩ => ⟨S3200000x2, .f32⟩
  | .hbm, ⟨23, _⟩ => ⟨S3200000x2, .f32⟩
  | .hbm, ⟨24, _⟩ => ⟨S_, .f32⟩
  | .hbm, ⟨25, _⟩ => ⟨S3200000, .f32⟩
  | .hbm, ⟨26, _⟩ => ⟨S3200000x1, .f32⟩
  | .hbm, ⟨27, _⟩ => ⟨S3200000x1, .f32⟩
  | .hbm, ⟨28, _⟩ => ⟨S_, .f32⟩
  | .hbm, ⟨29, _⟩ => ⟨S3200000x1, .f32⟩
  | .hbm, ⟨30, _⟩ => ⟨S3200000x1, .f32⟩
  | .hbm, ⟨31, _⟩ => ⟨S3200000x2, .f32⟩
  | .hbm, ⟨32, _⟩ => ⟨S3200000x2, .f32⟩
  | .hbm, ⟨33, _⟩ => ⟨S_, .f32⟩
  | .hbm, ⟨34, _⟩ => ⟨S3200000x1, .f32⟩
  | .hbm, ⟨35, _⟩ => ⟨S3200000x1, .f32⟩
  | .hbm, ⟨36, _⟩ => ⟨S_, .f32⟩
  | .hbm, ⟨37, _⟩ => ⟨S3200000x1, .f32⟩
  | .hbm, ⟨38, _⟩ => ⟨S3200000x1, .f32⟩
  | .hbm, ⟨39, _⟩ => ⟨S3200000x2, .f32⟩
  | .hbm, ⟨40, _⟩ => ⟨S3200000x2, .f32⟩
  | .hbm, ⟨41, _⟩ => ⟨S_, .f32⟩
  | .hbm, ⟨42, _⟩ => ⟨S100000x2, .f32⟩
  | .hbm, ⟨43, _⟩ => ⟨S3200000x1, .i32⟩
  | .hbm, ⟨44, _⟩ => ⟨S100000x2, .f32⟩
  | .hbm, ⟨45, _⟩ => ⟨S_, .f32⟩
  | .hbm, ⟨46, _⟩ => ⟨S100000x2, .f32⟩
  | .hbm, ⟨47, _⟩ => ⟨S100000x2, .f32⟩
  | .hbm, ⟨48, _⟩ => ⟨S100000x2, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x2_S3200000_d1 : S3200000x2.ReducesTo [1] S3200000
  h_S_ : 0 < S_.numel
  bcast_S_S3200000x1 : S_.BroadcastsInDim S3200000x1 (![] : Fin 0 → Fin S3200000x1.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.Springs.lean ====
/-
  Damped springs on a graph, as one function of the four argument arrays.

  There are 100000 nodes with a position and a velocity in the plane (two [100000, 2] arrays) and 3200000 edges, each
  a pair of 32-bit words (source, destination). A word names a node: a negative word counts back from the end
  (100000 is added), and the result is then clamped into [0, 99999]. An edge's displacement is the position of its
  destination node less that of its source node; with r the displacement's length, the edge sends the message
  -2 (r - 1) times the displacement divided by max r eps, component by component. A node's result is the sum of the
  messages of the edges whose destination WORD, read signed and neither wrapped nor clamped, is the node's number,
  less a tenth of the node's velocity. All of it on the extended reals, the constants as their single-precision words.
-/
import Idealize.ShloMosaic.PureOps.Ideal
import Idealize.ShloMosaic.PureOps.Ideal.Laws
import Idealize.ShloMosaic.Lib.ValueIdx

noncomputable section

open scoped BigOperators

namespace Cert.Springs

open Idealize.ShloMosaic Idealize.ShloMosaic.ValueIdx

/-- A negative word counts back from the end of the node list. -/
def wrapWord (w : BitVec 32) : BitVec 32 :=
  Scalar.select (IntOp.cmpi .slt w 0#32) (IntOp.addi w 100000#32) w

/-- The node a word names: wrapped, read signed, clamped into the node list. -/
def node (w : BitVec 32) : Fin 100000 := ⟨min (wrapWord w).toInt.toNat (100000 - 1), by omega⟩

/-- The length of the plane vector (a, b). -/
def len (a b : EReal) : EReal := Ideal.sqrt (a * a + b * b)

/-- The spring's pull along a displacement (a, b), on the component whose displacement is u: the force
    -2 (r - 1) times u / max r eps, r the length. -/
def pull (a b u : EReal) : EReal :=
  (Ideal.ofBits .f32 0xC0000000#32 * (len a b - Ideal.ofBits .f32 0x3F800000#32))
    * Ideal.div u (max (len a b) (Ideal.ofBits .f32 0x2B8CBCCC#32))

/-- Component d of the displacement of the edge from word s to word t. -/
def disp (x : (⟨2, ![100000, 2]⟩ : Shape).Idx → EReal) (s t : BitVec 32) (d : Fin 2) : EReal :=
  x (ix2 (node t) d) - x (ix2 (node s) d)

/-- Component d of the message the edge from word s to word t sends. -/
def msg (x : (⟨2, ![100000, 2]⟩ : Shape).Idx → EReal) (s t : BitVec 32) (d : Fin 2) : EReal :=
  pull (disp x s t 0) (disp x s t 1) (disp x s t d)

/-- The result: at node p, component d, the messages of the edges whose destination word is p, summed from zero,
    less a tenth of the velocity. -/
def accel (x v : (⟨2, ![100000, 2]⟩ : Shape).Idx → EReal) (src dst : (⟨1, ![3200000]⟩ : Shape).Idx → BitVec 32) :
    (⟨2, ![100000, 2]⟩ : Shape).Idx → EReal := fun i =>
  (Ideal.ofBits .f32 0x00000000#32
      + ∑ e : Fin 3200000, if (dst (ix1 e)).toInt = ((i 0).val : ℤ) then msg x (src (ix1 e)) (dst (ix1 e)) (i 1) else 0)
    - Ideal.ofBits .f32 0x3DCCCCCD#32 * v i

theorem accel_apply (x v : (⟨2, ![100000, 2]⟩ : Shape).Idx → EReal) (src dst : (⟨1, ![3200000]⟩ : Shape).Idx → BitVec 32)
    (p : Fin 100000) (d : Fin 2) :
    accel x v src dst (ix2 p d)
      = (Ideal.ofBits .f32 0x00000000#32
          + ∑ e : Fin 3200000, if (dst (ix1 e)).toInt = (p.val : ℤ) then msg x (src (ix1 e)) (dst (ix1 e)) d else 0)
        - Ideal.ofBits .f32 0x3DCCCCCD#32 * v (ix2 p d) := rfl

/-- The length as a sum of the two squares from zero: the form a reduction over the component axis has. -/
theorem sqrt_sum_sq (f : Fin 2 → EReal) :
    Ideal.sqrt (Ideal.ofBits .f32 0x00000000#32 + ∑ k : Fin 2, f k * f k) = len (f 0) (f 1) := by
  rw [Ideal.ofBits_zero_f32, zero_add, Fin.sum_univ_two]
  rfl

end Cert.Springs

end
-- ==== Proof.EdgeSlabs.lean ====
/-
  The region's two result arrays, whole.

  The region walks the [25000, 128] arrays in 25 blocks of 1000 rows. At a point it loads the same block of the four
  input arrays (source x, source y, destination x, destination y of 128000 edges), and stores, entry by entry, the
  first and the second component of the spring's pull along the displacement (destination less source). Since the
  body is entrywise and all six windows sit on one block, what a point writes back is that block of ONE entrywise
  function of the four whole arrays; the 25 blocks tile the result arrays, so each ends holding that function.
-/
import proofs.«415988_j85229331022334_3_alg».proof.Proof.Gen.KernelIdeal.Frame
import proofs.«415988_j85229331022334_3_alg».proof.Proof.Springs
import Idealize.ShloMosaic.Lib.Pipeline.Value

set_option maxRecDepth 16384

noncomputable section

namespace Cert.KernelIdeal.EdgeSlabs

open Cert.KernelIdeal Cert.KernelIdeal.Gen Idealize.ShloMosaic Idealize.ShloMosaic.TcCoe Idealize.SL.Sem
open Idealize.ShloMosaic.Pipeline (Dat)
open Cert.Springs

variable (m : (ℓ : Loc nD τ sig) → Buf (Elt Ideal) ℓ)

/-- The first component of an edge's message from its endpoints' coordinates. -/
def edgeX (sx sy dx dy : EReal) : EReal := pull (dx - sx) (dy - sy) (dx - sx)
/-- The second component. -/
def edgeY (sx sy dx dy : EReal) : EReal := pull (dx - sx) (dy - sy) (dy - sy)

/-- The first message component over whole arrays of endpoint coordinates, entry by entry. -/
abbrev slabX (a0 a1 a2 a3 : S25000x128.Idx → EReal) : S25000x128.Idx → EReal :=
  fun i => edgeX (a0 i) (a1 i) (a2 i) (a3 i)
/-- The second. -/
abbrev slabY (a0 a1 a2 a3 : S25000x128.Idx → EReal) : S25000x128.Idx → EReal :=
  fun i => edgeY (a0 i) (a1 i) (a2 i) (a3 i)

theorem hz : (![0, 0] : Fin 2 → Nat) = fun _ => 0 := funext fun a => by fin_cases a <;> rfl

/-- The body's first stored value is the first message component of its four loaded blocks, entry by entry: the
    casts to the same shape are identities, the arithmetic is the pull's. -/
theorem k0_pay6_eq (x0 x1 x2 x3 : Vec Ideal S1000x128 .f32) :
    k0_pay6 x0 x1 x2 x3 = fun j => edgeX (x0 j) (x1 j) (x2 j) (x3 j) := by
  unfold k0_pay6 k0_pay5 k0_pay4 k0_pay3 k0_pay1 k0_pay2
  simp only [shapeCast_self]
  rfl

/-- The body's second stored value is the second message component. -/
theorem k0_pay7_eq (x0 x1 x2 x3 : Vec Ideal S1000x128 .f32) :
    k0_pay7 x0 x1 x2 x3 = fun j => edgeY (x0 j) (x1 j) (x2 j) (x3 j) := by
  unfold k0_pay7 k0_pay5 k0_pay4 k0_pay3 k0_pay1 k0_pay2
  simp only [shapeCast_self]
  rfl

/-! ## Output window 4 -/

/-- Each of the four input windows sits on the same block as output window 4 at every grid point (their index maps
    agree with its own, decided over the 25 points). -/
theorem same_block4 : ∀ t : Fin cfg0.N,
    (∀ a : Fin 2, win0_0.index t a = win0_4.index t a) ∧ (∀ a : Fin 2, win0_1.index t a = win0_4.index t a)
    ∧ (∀ a : Fin 2, win0_2.index t a = win0_4.index t a) ∧ (∀ a : Fin 2, win0_3.index t a = win0_4.index t a) :=
  (by decide +kernel : ∀ t : Fin grid0.N, _)

/-- Every row block of the array is some point's. -/
theorem onto4 : ∀ q0 : Fin 25, ∃ t : Fin cfg0.N, win0_4.index t = ![q0.val, 0] :=
  (by decide +kernel : ∀ q0 : Fin 25, ∃ t : Fin grid0.N, win0_4.index t = ![q0.val, 0])

set_option maxHeartbeats 4000000 in
/-- What point t writes back is block t of slabX of the four arrays of endpoint coordinates as the region finds them. -/
theorem flushed4_eq (c : Dev nD) (t : Fin cfg0.N) :
    (dats m 0 c).flushed 4 t = ((cfg0.win 4).blk t).view.read (Elt Ideal)
      (slabX (V m c main_v11) (V m c main_v19) (V m c main_v27) (V m c main_v35)) := by
  show (cfg0.win 4).cut (grid0.coords t) ((dats m 0 c).after 4 t) = _
  rw [after0_4]
  unfold out0_4
  rw [View.canon_unit_zero hz]
  simp only [View.ld_unit_zero (S := S1000x128) hz]
  rw [k0_pay6_eq]
  obtain ⟨e0, e1, e2, e3⟩ := same_block4 t
  funext j
  show edgeX (V m c main_v11 (((cfg0.win 0).blk t).view.emb j)) (V m c main_v19 (((cfg0.win 1).blk t).view.emb j))
      (V m c main_v27 (((cfg0.win 2).blk t).view.emb j)) (V m c main_v35 (((cfg0.win 3).blk t).view.emb j))
    = edgeX (V m c main_v11 (((cfg0.win 4).blk t).view.emb j)) (V m c main_v19 (((cfg0.win 4).blk t).view.emb j))
      (V m c main_v27 (((cfg0.win 4).blk t).view.emb j)) (V m c main_v35 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 1000 + 1 * (j 0).val = win0_4.index t (0 : Fin 2) * 1000 + 1 * (j 0).val; rw [e0 0]
    | ⟨1, _⟩ => show win0_0.index t (1 : Fin 2) * 128 + 1 * (j 1).val = win0_4.index t (1 : Fin 2) * 128 + 1 * (j 1).val; rw [e0 1]
  have h1 : ((cfg0.win 1).blk t).view.emb j = ((cfg0.win 4).blk t).view.emb j := by
    funext a; apply Fin.ext
    match a with
    | ⟨0, _⟩ => show win0_1.index t (0 : Fin 2) * 1000 + 1 * (j 0).val = win0_4.index t (0 : Fin 2) * 1000 + 1 * (j 0).val; rw [e1 0]
    | ⟨1, _⟩ => show win0_1.index t (1 : Fin 2) * 128 + 1 * (j 1).val = win0_4.index t (1 : Fin 2) * 128 + 1 * (j 1).val; rw [e1 1]
  have h2 : ((cfg0.win 2).blk t).view.emb j = ((cfg0.win 4).blk t).view.emb j := by
    funext a; apply Fin.ext
    match a with
    | ⟨0, _⟩ => show win0_2.index t (0 : Fin 2) * 1000 + 1 * (j 0).val = win0_4.index t (0 : Fin 2) * 1000 + 1 * (j 0).val; rw [e2 0]
    | ⟨1, _⟩ => show win0_2.index t (1 : Fin 2) * 128 + 1 * (j 1).val = win0_4.index t (1 : Fin 2) * 128 + 1 * (j 1).val; rw [e2 1]
  have h3 : ((cfg0.win 3).blk t).view.emb j = ((cfg0.win 4).blk t).view.emb j := by
    funext a; apply Fin.ext
    match a with
    | ⟨0, _⟩ => show win0_3.index t (0 : Fin 2) * 1000 + 1 * (j 0).val = win0_4.index t (0 : Fin 2) * 1000 + 1 * (j 0).val; rw [e3 0]
    | ⟨1, _⟩ => show win0_3.index t (1 : Fin 2) * 128 + 1 * (j 1).val = win0_4.index t (1 : Fin 2) * 128 + 1 * (j 1).val; rw [e3 1]
  rw [h0, h1, h2, h3]

/-- An index of the array is in point t's block iff each coordinate is in the block's range on its axis. -/
theorem mem_blk4 (t : Fin cfg0.N) (i : S25000x128.Idx) :
    i ∈ ((cfg0.win 4).blk t).view.set ↔ ∀ a : Fin 2, win0_4.index t a * S1000x128.size a ≤ (i a).val
      ∧ (i a).val < win0_4.index t a * S1000x128.size a + S1000x128.size a := by
  show i ∈ ((View.whole main_v36_0).slice (win0_4.rect t)).set ↔ _
  rw [View.set_slice_whole, Rect.mem_set_unit]
  exact Iff.rfl

/-- Row r of the array lies in the block of the point whose block index is r / 1000: the blocks cover the array. -/
theorem cover4 (i : S25000x128.Idx) :
    ∃ t : Fin cfg0.N, (cfg0.win 4).flush t = true ∧ i ∈ ((cfg0.win 4).blk t).view.set := by
  have hi0 : (i 0).val < 25000 := (i 0).isLt
  have hi1 : (i 1).val < 128 := (i 1).isLt
  obtain ⟨t, ht⟩ := onto4 ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk4]
  intro a
  match a with
  | ⟨0, _⟩ =>
    show win0_4.index t (0 : Fin 2) * 1000 ≤ (i 0).val ∧ (i 0).val < win0_4.index t (0 : Fin 2) * 1000 + 1000
    omega
  | ⟨1, _⟩ =>
    show win0_4.index t (1 : Fin 2) * 128 ≤ (i 1).val ∧ (i 1).val < win0_4.index t (1 : Fin 2) * 128 + 128
    omega

/-- The array after the region: slabX of the four arrays of endpoint coordinates, whole. -/
theorem final4 (c : Dev nD) :
    (dats m 0 c).arrAt 4 cfg0.N = slabX (V m c main_v11) (V m c main_v19) (V m c main_v27) (V m c main_v35) :=
  (dats m 0 c).arrAt_eq_of_cover 4 _ (fun t _ => flushed4_eq m c t) cover4

/-! ## Output window 5 -/

/-- Each of the four input windows sits on the same block as output window 5 at every grid point (their index maps
    agree with its own, decided over the 25 points). -/
theorem same_block5 : ∀ t : Fin cfg0.N,
    (∀ a : Fin 2, win0_0.index t a = win0_5.index t a) ∧ (∀ a : Fin 2, win0_1.index t a = win0_5.index t a)
    ∧ (∀ a : Fin 2, win0_2.index t a = win0_5.index t a) ∧ (∀ a : Fin 2, win0_3.index t a = win0_5.index t a) :=
  (by decide +kernel : ∀ t : Fin grid0.N, _)

/-- Every row block of the array is some point's. -/
theorem onto5 : ∀ q0 : Fin 25, ∃ t : Fin cfg0.N, win0_5.index t = ![q0.val, 0] :=
  (by decide +kernel : ∀ q0 : Fin 25, ∃ t : Fin grid0.N, win0_5.index t = ![q0.val, 0])

set_option maxHeartbeats 4000000 in
/-- What point t writes back is block t of slabY of the four arrays of endpoint coordinates as the region finds them. -/
theorem flushed5_eq (c : Dev nD) (t : Fin cfg0.N) :
    (dats m 0 c).flushed 5 t = ((cfg0.win 5).blk t).view.read (Elt Ideal)
      (slabY (V m c main_v11) (V m c main_v19) (V m c main_v27) (V m c main_v35)) := by
  show (cfg0.win 5).cut (grid0.coords t) ((dats m 0 c).after 5 t) = _
  rw [after0_5]
  unfold out0_5
  rw [View.canon_unit_zero hz]
  simp only [View.ld_unit_zero (S := S1000x128) hz]
  rw [k0_pay7_eq]
  obtain ⟨e0, e1, e2, e3⟩ := same_block5 t
  funext j
  show edgeY (V m c main_v11 (((cfg0.win 0).blk t).view.emb j)) (V m c main_v19 (((cfg0.win 1).blk t).view.emb j))
      (V m c main_v27 (((cfg0.win 2).blk t).view.emb j)) (V m c main_v35 (((cfg0.win 3).blk t).view.emb j))
    = edgeY (V m c main_v11 (((cfg0.win 5).blk t).view.emb j)) (V m c main_v19 (((cfg0.win 5).blk t).view.emb j))
      (V m c main_v27 (((cfg0.win 5).blk t).view.emb j)) (V m c main_v35 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 1000 + 1 * (j 0).val = win0_5.index t (0 : Fin 2) * 1000 + 1 * (j 0).val; rw [e0 0]
    | ⟨1, _⟩ => show win0_0.index t (1 : Fin 2) * 128 + 1 * (j 1).val = win0_5.index t (1 : Fin 2) * 128 + 1 * (j 1).val; rw [e0 1]
  have h1 : ((cfg0.win 1).blk t).view.emb j = ((cfg0.win 5).blk t).view.emb j := by
    funext a; apply Fin.ext
    match a with
    | ⟨0, _⟩ => show win0_1.index t (0 : Fin 2) * 1000 + 1 * (j 0).val = win0_5.index t (0 : Fin 2) * 1000 + 1 * (j 0).val; rw [e1 0]
    | ⟨1, _⟩ => show win0_1.index t (1 : Fin 2) * 128 + 1 * (j 1).val = win0_5.index t (1 : Fin 2) * 128 + 1 * (j 1).val; rw [e1 1]
  have h2 : ((cfg0.win 2).blk t).view.emb j = ((cfg0.win 5).blk t).view.emb j := by
    funext a; apply Fin.ext
    match a with
    | ⟨0, _⟩ => show win0_2.index t (0 : Fin 2) * 1000 + 1 * (j 0).val = win0_5.index t (0 : Fin 2) * 1000 + 1 * (j 0).val; rw [e2 0]
    | ⟨1, _⟩ => show win0_2.index t (1 : Fin 2) * 128 + 1 * (j 1).val = win0_5.index t (1 : Fin 2) * 128 + 1 * (j 1).val; rw [e2 1]
  have h3 : ((cfg0.win 3).blk t).view.emb j = ((cfg0.win 5).blk t).view.emb j := by
    funext a; apply Fin.ext
    match a with
    | ⟨0, _⟩ => show win0_3.index t (0 : Fin 2) * 1000 + 1 * (j 0).val = win0_5.index t (0 : Fin 2) * 1000 + 1 * (j 0).val; rw [e3 0]
    | ⟨1, _⟩ => show win0_3.index t (1 : Fin 2) * 128 + 1 * (j 1).val = win0_5.index t (1 : Fin 2) * 128 + 1 * (j 1).val; rw [e3 1]
  rw [h0, h1, h2, h3]

/-- An index of the array is in point t's block iff each coordinate is in the block's range on its axis. -/
theorem mem_blk5 (t : Fin cfg0.N) (i : S25000x128.Idx) :
    i ∈ ((cfg0.win 5).blk t).view.set ↔ ∀ a : Fin 2, win0_5.index t a * S1000x128.size a ≤ (i a).val
      ∧ (i a).val < win0_5.index t a * S1000x128.size a + S1000x128.size a := by
  show i ∈ ((View.whole main_v36_1).slice (win0_5.rect t)).set ↔ _
  rw [View.set_slice_whole, Rect.mem_set_unit]
  exact Iff.rfl

/-- Row r of the array lies in the block of the point whose block index is r / 1000: the blocks cover the array. -/
theorem cover5 (i : S25000x128.Idx) :
    ∃ t : Fin cfg0.N, (cfg0.win 5).flush t = true ∧ i ∈ ((cfg0.win 5).blk t).view.set := by
  have hi0 : (i 0).val < 25000 := (i 0).isLt
  have hi1 : (i 1).val < 128 := (i 1).isLt
  obtain ⟨t, ht⟩ := onto5 ⟨(i 0).val / 1000, by omega⟩
  have q0 : win0_5.index t (0 : Fin 2) = (i 0).val / 1000 := congrFun ht 0
  have q1 : win0_5.index t (1 : Fin 2) = 0 := congrFun ht 1
  refine ⟨t, flush0_5 t, ?_⟩
  rw [mem_blk5]
  intro a
  match a with
  | ⟨0, _⟩ =>
    show win0_5.index t (0 : Fin 2) * 1000 ≤ (i 0).val ∧ (i 0).val < win0_5.index t (0 : Fin 2) * 1000 + 1000
    omega
  | ⟨1, _⟩ =>
    show win0_5.index t (1 : Fin 2) * 128 ≤ (i 1).val ∧ (i 1).val < win0_5.index t (1 : Fin 2) * 128 + 128
    omega

/-- The array after the region: slabY of the four arrays of endpoint coordinates, whole. -/
theorem final5 (c : Dev nD) :
    (dats m 0 c).arrAt 5 cfg0.N = slabY (V m c main_v11) (V m c main_v19) (V m c main_v27) (V m c main_v35) :=
  (dats m 0 c).arrAt_eq_of_cover 5 _ (fun t _ => flushed5_eq m c t) cover5

end Cert.KernelIdeal.EdgeSlabs

end
-- ==== Proof.LibEdgeTable.lean ====
/-
  A table of k index words, held as a [k, 1] array, used two ways on the host, each read at an index.

  Picking: the gather that takes one entry of an [n] array, or one whole row of an [n, c] array, per table word.
  Result e (or (e, q)) is the operand at position min (word e read signed, negatives to 0) (n - 1): the gather
  clamps every start index into the operand.

  Accumulating: the scatter with an adding body that sends update e of a [k] array (or row e of a [k, c] array) to
  position (word e read signed) of an [n] operand (or to that row of an [n, c] operand), NOT clamped: an update whose
  word is negative or at least n lands nowhere. On the extended reals the result at position p is the operand there
  plus the sum over all e of the update at e when word e is p, and of 0 otherwise; for rows, component by component.
-/
import Idealize.ShloMosaic.PureOps.Ideal
import Idealize.ShloMosaic.Lib.ValueIdx

noncomputable section

open scoped BigOperators

namespace Cert.LibEdgeTable

open Idealize.ShloMosaic Idealize.ShloMosaic.ValueIdx

/-! ## Sums over a one-axis index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Picking entries and rows by a table -/

section Gather
variable {α : Type}

/-- The dimension numbers of the gather that picks one entry of an [n] array per word of a [k, 1] table. -/
abbrev pickDims (n k : Nat) (wf : GatherDims.WF ⟨1, ![n]⟩ ⟨2, ![k, 1]⟩ ⟨1, ![k]⟩ [] [0] [] [0] [] 1 ![1]) :
    GatherDims ⟨1, ![n]⟩ ⟨2, ![k, 1]⟩ ⟨1, ![k]⟩ where
  offsetDims := []
  collapsedSliceDims := [0]
  operandBatchingDims := []
  startIndicesBatchingDims := []
  startIndexMap := [0]
  indexVectorDim := 1
  sliceSizes := ![1]
  wf := wf

/-- The entry gather read at e: the operand at word e, read signed and clamped into [0, n - 1]. -/
theorem gather_pick_apply {n k w : Nat} (hn : 0 < n)
    (wf : GatherDims.WF ⟨1, ![n]⟩ ⟨2, ![k, 1]⟩ ⟨1, ![k]⟩ [] [0] [] [0] [] 1 ![1])
    (x : (⟨1, ![n]⟩ : Shape).Idx → α) (idx : IVec ⟨2, ![k, 1]⟩ w) (e : Fin k) :
    Host.gather (pickDims n k wf) x idx (ix1 e)
      = x (ix1 ⟨min (idx (ix2 e (0 : Fin 1))).toInt.toNat (n - 1), by omega⟩) := by
  unfold Host.gather
  congr 1
  funext a
  obtain rfl : a = 0 := Subsingleton.elim _ _
  refine Fin.ext ?_
  show (pickDims n k wf).start (ix1 e) idx 0 + (pickDims n k wf).batchCoord (ix1 e) 0
      + (pickDims n k wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims n k wf).startIndexMap from List.mem_singleton.mpr rfl)]
  have hsi : (pickDims n k wf).siIdx (ix1 e) ⟨List.idxOf (0 : Fin 1) (pickDims n k wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of the gather that picks one whole row of an [n, c] array per word of a [k, 1] table. -/
abbrev rowsDims (n c k : Nat)
    (wf : GatherDims.WF ⟨2, ![n, c]⟩ ⟨2, ![k, 1]⟩ ⟨2, ![k, c]⟩ [1] [0] [] [0] [] 1 ![1, c]) :
    GatherDims ⟨2, ![n, c]⟩ ⟨2, ![k, 1]⟩ ⟨2, ![k, c]⟩ where
  offsetDims := [1]
  collapsedSliceDims := [0]
  operandBatchingDims := []
  startIndicesBatchingDims := []
  startIndexMap := [0]
  indexVectorDim := 1
  sliceSizes := ![1, c]
  wf := wf

/-- The row gather read at (e, q): the operand at row word e, read signed and clamped into [0, n - 1], column q. -/
theorem gather_rows_apply {n c k w : Nat} (hn : 0 < n)
    (wf : GatherDims.WF ⟨2, ![n, c]⟩ ⟨2, ![k, 1]⟩ ⟨2, ![k, c]⟩ [1] [0] [] [0] [] 1 ![1, c])
    (x : (⟨2, ![n, c]⟩ : Shape).Idx → α) (idx : IVec ⟨2, ![k, 1]⟩ w) (e : Fin k) (q : Fin c) :
    Host.gather (rowsDims n c k wf) x idx (ix2 e q)
      = x (ix2 ⟨min (idx (ix2 e (0 : Fin 1))).toInt.toNat (n - 1), by omega⟩ q) := by
  unfold Host.gather
  congr 1
  funext a
  refine Fin.ext ?_
  match a with
  | ⟨0, _⟩ =>
    show (rowsDims n c k wf).start (ix2 e q) idx 0 + (rowsDims n c k wf).batchCoord (ix2 e q) 0
        + (rowsDims n c k wf).offCoord (ix2 e q) 0 = min (idx (ix2 e (0 : Fin 1))).toInt.toNat (n - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n c k wf).startIndexMap from List.mem_singleton.mpr rfl)]
    have hsi : (rowsDims n c k wf).siIdx (ix2 e q) ⟨List.idxOf (0 : Fin 2) (rowsDims n c k wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims n c k wf).start (ix2 e q) idx 1 + (rowsDims n c k wf).batchCoord (ix2 e q) 1
        + (rowsDims n c k wf).offCoord (ix2 e q) 1 = q.val
    rw [GatherDims.batchCoord_eq_zero _ _ _ List.not_mem_nil]
    unfold GatherDims.start
    rw [dif_neg (show (1 : Fin 2) ∉ (rowsDims n c k wf).startIndexMap from
      show (1 : Fin 2) ∉ ([0] : List (Fin 2)) from by decide)]
    unfold GatherDims.offCoord
    rw [dif_pos (show (1 : Fin 2) ∈ (rowsDims n c k wf).sKept from (GatherDims.mem_sKept _ _).mpr
      ⟨show (1 : Fin 2) ∉ ([0] : List (Fin 2)) from by decide, List.not_mem_nil⟩)]
    simp only [Nat.zero_add, Nat.add_zero]
    rfl

end Gather

/-! ## Where an update lands -/

/-- An update lands on operand index i exactly when, on every axis, its start (read signed off the table) plus its
    window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hh
      intro a
      have ha : (d.start j idx a + (d.window j a : ℤ)).toNat = (i a).val :=
        congrArg Fin.val (congrFun (Option.some.inj h) a)
      have := hh a
      omega
    · exact absurd h (by simp)
  · intro h
    have hh : ∀ a, 0 ≤ d.start j idx a + (d.window j a : ℤ) ∧ d.start j idx a + (d.window j a : ℤ) < s.size a :=
      fun a => by
        rw [h a]
        exact ⟨Int.natCast_nonneg _, by exact_mod_cast (i a).isLt⟩
    rw [dif_pos hh]
    congr 1
    funext a
    refine Fin.ext ?_
    show (d.start j idx a + (d.window j a : ℤ)).toNat = (i a).val
    rw [h a]
    exact Int.toNat_natCast _

/-- On the extended reals the host's accumulating scatter is the exact sum of the landing updates, whatever its
    dimension numbers. -/
theorem hostScatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-! ## Accumulating into an [n] array -/

/-- The dimension numbers of the scatter that sends update e of a [k] array to position word e of an [n] operand. -/
abbrev addDims1 (n k : Nat) (wf : ScatterDims.WF ⟨1, ![n]⟩ ⟨2, ![k, 1]⟩ ⟨1, ![k]⟩ [] [0] [0] 1) :
    ScatterDims ⟨1, ![n]⟩ ⟨2, ![k, 1]⟩ ⟨1, ![k]⟩ where
  updateWindowDims := []
  insertedWindowDims := [0]
  scatterDimsToOperandDims := [0]
  indexVectorDim := 1
  wf := wf

section Add1
variable {n k w : Nat} (wf : ScatterDims.WF ⟨1, ![n]⟩ ⟨2, ![k, 1]⟩ ⟨1, ![k]⟩ [] [0] [0] 1)
  (idx : IVec ⟨2, ![k, 1]⟩ w) (e : Fin k)

theorem addDims1_start : (addDims1 n k wf).start (ix1 e) idx 0 = (idx (ix2 e (0 : Fin 1))).toInt := by
  unfold ScatterDims.start
  rw [dif_pos (show (0 : Fin 1) ∈ (addDims1 n k wf).scatterDimsToOperandDims from List.mem_singleton.mpr rfl)]
  have hsi : (addDims1 n k wf).siIdx (ix1 e) ⟨List.idxOf (0 : Fin 1) (addDims1 n k wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem addDims1_window : (addDims1 n k wf).window (ix1 e) 0 = 0 := by
  unfold ScatterDims.window
  rw [dif_neg (show (0 : Fin 1) ∉ (addDims1 n k wf).sKept from by
    simp [ScatterDims.sKept, Shape.kept])]

/-- Update e lands on position p exactly when word e, read signed, is p. -/
theorem addDims1_lands (p : Fin n) :
    (addDims1 n k wf).resultIdx? (ix1 e) idx = some (ix1 p) ↔ (idx (ix2 e (0 : Fin 1))).toInt = (p.val : ℤ) := by
  rw [resultIdx?_eq_some_iff, Fin.forall_fin_one, addDims1_start, addDims1_window]
  show (idx (ix2 e (0 : Fin 1))).toInt + ((0 : ℕ) : ℤ) = (p.val : ℤ) ↔ _
  rw [Int.natCast_zero, Int.add_zero]

end Add1

/-- The accumulating scatter into an [n] array read at p: the operand there plus, over all e, the update at e
    when word e is p. -/
theorem scatterAdd1_apply {n k w : Nat} (wf : ScatterDims.WF ⟨1, ![n]⟩ ⟨2, ![k, 1]⟩ ⟨1, ![k]⟩ [] [0] [0] 1)
    (x : (⟨1, ![n]⟩ : Shape).Idx → EReal) (idx : IVec ⟨2, ![k, 1]⟩ w) (upd : (⟨1, ![k]⟩ : Shape).Idx → EReal)
    (p : Fin n) :
    Ideal.hostScatterAdd (addDims1 n k wf) x idx upd (ix1 p)
      = x (ix1 p) + ∑ e : Fin k, if (idx (ix2 e (0 : Fin 1))).toInt = (p.val : ℤ) then upd (ix1 e) else 0 := by
  unfold Ideal.hostScatterAdd
  congr 1
  rw [Finset.sum_filter, sum_idx1]
  refine Finset.sum_congr rfl fun e _ => ?_
  by_cases h : (idx (ix2 e (0 : Fin 1))).toInt = (p.val : ℤ)
  · rw [if_pos ((addDims1_lands wf idx e p).mpr h), if_pos h]
  · rw [if_neg (fun h' => h ((addDims1_lands wf idx e p).mp h')), if_neg h]

/-! ## Accumulating rows into an [n, c] array -/

/-- The dimension numbers of the scatter that sends row e of a [k, c] array to row word e of an [n, c] operand. -/
abbrev addDims2 (n c k : Nat) (wf : ScatterDims.WF ⟨2, ![n, c]⟩ ⟨2, ![k, 1]⟩ ⟨2, ![k, c]⟩ [1] [0] [0] 1) :
    ScatterDims ⟨2, ![n, c]⟩ ⟨2, ![k, 1]⟩ ⟨2, ![k, c]⟩ where
  updateWindowDims := [1]
  insertedWindowDims := [0]
  scatterDimsToOperandDims := [0]
  indexVectorDim := 1
  wf := wf

section Add2
variable {n c k w : Nat} (wf : ScatterDims.WF ⟨2, ![n, c]⟩ ⟨2, ![k, 1]⟩ ⟨2, ![k, c]⟩ [1] [0] [0] 1)
  (idx : IVec ⟨2, ![k, 1]⟩ w) (e : Fin k) (q : Fin c)

theorem addDims2_start0 : (addDims2 n c k wf).start (ix2 e q) idx 0 = (idx (ix2 e (0 : Fin 1))).toInt := by
  unfold ScatterDims.start
  rw [dif_pos (show (0 : Fin 2) ∈ (addDims2 n c k wf).scatterDimsToOperandDims from List.mem_singleton.mpr rfl)]
  have hsi : (addDims2 n c k wf).siIdx (ix2 e q) ⟨List.idxOf (0 : Fin 2) (addDims2 n c k wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem addDims2_start1 : (addDims2 n c k wf).start (ix2 e q) idx 1 = 0 := by
  unfold ScatterDims.start
  rw [dif_neg (show (1 : Fin 2) ∉ (addDims2 n c k wf).scatterDimsToOperandDims from
    show (1 : Fin 2) ∉ ([0] : List (Fin 2)) from by decide)]

theorem addDims2_window0 : (addDims2 n c k wf).window (ix2 e q) 0 = 0 := by
  unfold ScatterDims.window
  rw [dif_neg (show (0 : Fin 2) ∉ (addDims2 n c k wf).sKept from by
    simp [ScatterDims.sKept, Shape.kept])]

theorem addDims2_window1 : (addDims2 n c k wf).window (ix2 e q) 1 = q.val := by
  unfold ScatterDims.window
  rw [dif_pos (show (1 : Fin 2) ∈ (addDims2 n c k wf).sKept from by
    simp [ScatterDims.sKept, Shape.kept])]
  rfl

/-- Entry (e, q) lands on (p, r) exactly when word e, read signed, is p and q is r. -/
theorem addDims2_lands (p : Fin n) (r : Fin c) :
    (addDims2 n c k wf).resultIdx? (ix2 e q) idx = some (ix2 p r)
      ↔ (idx (ix2 e (0 : Fin 1))).toInt = (p.val : ℤ) ∧ q = r := by
  rw [resultIdx?_eq_some_iff, Fin.forall_fin_two, addDims2_start0, addDims2_start1, addDims2_window0, addDims2_window1]
  show (idx (ix2 e (0 : Fin 1))).toInt + ((0 : ℕ) : ℤ) = (p.val : ℤ) ∧ (0 : ℤ) + (q.val : ℤ) = (r.val : ℤ) ↔ _
  rw [Int.natCast_zero, Int.add_zero, Int.zero_add]
  exact and_congr_right fun _ => ⟨fun h => Fin.ext (by exact_mod_cast h), fun h => by rw [h]⟩

end Add2

/-- The accumulating scatter of rows into an [n, c] array read at (p, r): the operand there plus, over all e, the
    update at (e, r) when word e is p. -/
theorem scatterAdd2_apply {n c k w : Nat}
    (wf : ScatterDims.WF ⟨2, ![n, c]⟩ ⟨2, ![k, 1]⟩ ⟨2, ![k, c]⟩ [1] [0] [0] 1)
    (x : (⟨2, ![n, c]⟩ : Shape).Idx → EReal) (idx : IVec ⟨2, ![k, 1]⟩ w) (upd : (⟨2, ![k, c]⟩ : Shape).Idx → EReal)
    (p : Fin n) (r : Fin c) :
    Ideal.hostScatterAdd (addDims2 n c k wf) x idx upd (ix2 p r)
      = x (ix2 p r)
        + ∑ e : Fin k, if (idx (ix2 e (0 : Fin 1))).toInt = (p.val : ℤ) then upd (ix2 e r) else 0 := by
  unfold Ideal.hostScatterAdd
  congr 1
  rw [Finset.sum_filter, sum_idx2]
  refine Finset.sum_congr rfl fun e _ => ?_
  by_cases h : (idx (ix2 e (0 : Fin 1))).toInt = (p.val : ℤ)
  · rw [if_pos h, Finset.sum_eq_single r]
    · rw [if_pos ((addDims2_lands wf idx e r p r).mpr ⟨h, rfl⟩)]
    · intro q _ hq
      rw [if_neg (fun h' => hq ((addDims2_lands wf idx e q p r).mp h').2)]
    · intro hr; exact absurd (Finset.mem_univ r) hr
  · rw [if_neg h]
    refine Finset.sum_eq_zero fun q _ => ?_
    rw [if_neg (fun h' => h ((addDims2_lands wf idx e q p r).mp h').1)]

end Cert.LibEdgeTable

end
-- ==== Proof.KernelLayout.lean ====
/-
  The kernel program's host lines as functions of arrays, read at an index.

  Before the region: the positions' two columns, a table of words wrapped, a column's entries picked at the table's
  nodes, and the picked list laid out in 25000 rows of 128. After the region: a [25000, 128] array laid back flat,
  every edge's entry accumulated from zero into the slot its word names, the two accumulations set side by side, and
  a tenth of the velocity taken off. Laying out and laying back cancel, a picked entry is the position entry of the
  node its word names, and the accumulation at slot p is the sum over the edges whose word is p: so the lines after
  the region, applied to the region's two message arrays over the picked columns, give the springs' result.
-/
import proofs.«415988_j85229331022334_3_alg».proof.Proof.EdgeSlabs
import proofs.«415988_j85229331022334_3_alg».proof.Proof.LibEdgeTable
import Idealize.ShloMosaic.Lib.Pipeline.Value

set_option maxRecDepth 16384

noncomputable section

open scoped BigOperators

namespace Cert.KernelIdeal.Layout

open Cert.KernelIdeal Cert.KernelIdeal.Gen Cert.KernelIdeal.EdgeSlabs
open Idealize.ShloMosaic Idealize.ShloMosaic.TcCoe
open Idealize.ShloMosaic.ValueIdx Cert.Springs Cert.LibEdgeTable

/-! ## The host lines before the region, as functions -/

/-- A table of words as the gathers read it: every word wrapped, in a [3200000, 1] array. -/
def table (a : S3200000.Idx → BitVec 32) : S3200000x1.Idx → BitVec 32 :=
  broadcastInDim S3200000x1 ![0] bcast_S3200000_S3200000x1_0
    (select (cmpi .slt a (broadcastInDim S3200000 ![] bcast_S_S3200000 (constantI S_ 32 0#32)))
      (addi a (broadcastInDim S3200000 ![] bcast_S_S3200000 (constantI S_ 32 100000#32))) a)

/-- Column 0 of the positions, as a [100000] array. -/
def column0 (x : S100000x2.Idx → EReal) : S100000.Idx → EReal :=
  shapeCast S100000 (extractStridedSlice S100000x1 ![0, 0] x slices_S100000x2_S100000x1_0_0) shapeCasts_S100000x1_S100000

/-- Column 1. -/
def column1 (x : S100000x2.Idx → EReal) : S100000.Idx → EReal :=
  shapeCast S100000 (extractStridedSlice S100000x1 ![0, 1] x slices_S100000x2_S100000x1_0_1) shapeCasts_S100000x1_S100000

/-- A column's entries at the nodes a table names, one per edge. -/
def picked (col : S100000.Idx → EReal) (a : S3200000.Idx → BitVec 32) : S3200000.Idx → EReal :=
  Host.gather gather_S100000_S3200000x1_S3200000_n_0_n_n_0_1_1 col (table a)

/-- The same laid out in 25000 rows of 128. -/
def staged (col : S100000.Idx → EReal) (a : S3200000.Idx → BitVec 32) : S25000x128.Idx → EReal :=
  shapeCast S25000x128 (picked col a) shapeCasts_S3200000_S25000x128

/-! ## The host lines after the region, as one function -/

/-- A [25000, 128] array laid back flat. -/
def flat (o : S25000x128.Idx → EReal) : S3200000.Idx → EReal := shapeCast S3200000 o shapeCasts_S25000x128_S3200000

/-- Every edge's entry added, from zero, into the slot its word names. -/
def summed (a3 : S3200000.Idx → BitVec 32) (u : S3200000.Idx → EReal) : S100000.Idx → EReal :=
  Host.scatterAdd (F := Ideal) (φ := .f32) scatter_S100000_S3200000x1_S3200000_n_0_0_1
    (broadcastInDim S100000 ![] bcast_S_S100000 (constant (F := Ideal) S_ .f32 0x00000000#32))
    (broadcastInDim S3200000x1 ![0] bcast_S3200000_S3200000x1_0 a3) u

/-- A [100000] array as a one-column array. -/
def asColumn (y : S100000.Idx → EReal) : S100000x1.Idx → EReal :=
  broadcastInDim S100000x1 ![0] bcast_S100000_S100000x1_0 y

/-- Two [100000] arrays set side by side as the columns of a [100000, 2] array. -/
def sideBySide (y0 y1 : S100000.Idx → EReal) : S100000x2.Idx → EReal :=
  concatenate S100000x2 1 [⟨S100000x1, asColumn y0⟩, ⟨S100000x1, asColumn y1⟩] concatenates_S100000x1_S100000x1_S100000x2_d1

/-- The word of a tenth at every node and component. -/
def tenth : S100000x2.Idx → EReal :=
  broadcastInDim S100000x2 ![] bcast_S_S100000x2 (constant (F := Ideal) S_ .f32 0x3DCCCCCD#32)

/-- The lines after the region: from the destination words, the velocities and the region's two result arrays. -/
def tail (a3 : S3200000.Idx → BitVec 32) (a1 : S100000x2.Idx → EReal) (o0 o1 : S25000x128.Idx → EReal) :
    S100000x2.Idx → EReal :=
  subf (F := Ideal) (φ := .f32) (sideBySide (summed a3 (flat o0)) (summed a3 (flat o1))) (mulf (F := Ideal) (φ := .f32) tenth a1)

/-! ## Reading the pieces at an index -/

/-- Column 0 at node q. -/
theorem column0_apply (x : S100000x2.Idx → EReal) (q : Fin 100000) : column0 x (ix1 q) = x (ix2 q (0 : Fin 2)) := by
  unfold column0
  rw [shapeCast_apply _ shapeCasts_S100000x1_S100000 (ix1 q) (ix2 q (0 : Fin 1))
    (by rw [Shape.rowMajor_val_two, Shape.rowMajor_val_one]; show q.val * 1 + 0 = q.val; omega)]
  exact extractStridedSlice_apply _ x slices_S100000x2_S100000x1_0_0 (ix2 q (0 : Fin 1)) (ix2 q (0 : Fin 2))
    (fun a => by
      match a with
      | ⟨0, _⟩ => show q.val = 0 + q.val; omega
      | ⟨1, _⟩ => show (0 : Nat) = 0 + 0; rfl)

/-- Column 1 at node q. -/
theorem column1_apply (x : S100000x2.Idx → EReal) (q : Fin 100000) : column1 x (ix1 q) = x (ix2 q (1 : Fin 2)) := by
  unfold column1
  rw [shapeCast_apply _ shapeCasts_S100000x1_S100000 (ix1 q) (ix2 q (0 : Fin 1))
    (by rw [Shape.rowMajor_val_two, Shape.rowMajor_val_one]; show q.val * 1 + 0 = q.val; omega)]
  exact extractStridedSlice_apply _ x slices_S100000x2_S100000x1_0_1 (ix2 q (0 : Fin 1)) (ix2 q (1 : Fin 2))
    (fun a => by
      match a with
      | ⟨0, _⟩ => show q.val = 0 + q.val; omega
      | ⟨1, _⟩ => show (1 : Nat) = 1 + 0; rfl)

/-- The table's word e, as the gather reads it: wrapped. -/
theorem table_apply (a : S3200000.Idx → BitVec 32) (e : Fin 3200000) :
    table a (ix2 e (0 : Fin 1)) = wrapWord (a (ix1 e)) := by
  unfold table
  rw [broadcastInDim_apply _ bcast_S3200000_S3200000x1_0 _ (ix2 e (0 : Fin 1)) (ix1 e) (fun a => by match a with | ⟨0, _⟩ => show e.val = if (3200000 : Nat) = 1 then 0 else e.val; rw [if_neg (by decide)])]
  rfl

/-- The picked array at edge e: the column at the node word e names. -/
theorem picked_apply (col : S100000.Idx → EReal) (a : S3200000.Idx → BitVec 32) (e : Fin 3200000) :
    picked col a (ix1 e) = col (ix1 (node (a (ix1 e)))) := by
  show Host.gather (pickDims 100000 3200000 gather_S100000_S3200000x1_S3200000_n_0_n_n_0_1_1_wf) col (table a) (ix1 e) = _
  rw [gather_pick_apply (by decide)]
  refine congrArg col (congrArg (fun r => ix1 r) (Fin.ext ?_))
  show min (table a (ix2 e (0 : Fin 1))).toInt.toNat (100000 - 1) = (node (a (ix1 e))).val
  rw [table_apply]
  rfl

/-- Laying four arrays out, combining them entry by entry and laying the result back flat is combining the four
    arrays entry by entry. -/
theorem flat_entrywise (f : EReal → EReal → EReal → EReal → EReal) (a0 a1 a2 a3 : S3200000.Idx → EReal) :
    flat (fun i => f (shapeCast S25000x128 a0 shapeCasts_S3200000_S25000x128 i)
        (shapeCast S25000x128 a1 shapeCasts_S3200000_S25000x128 i)
        (shapeCast S25000x128 a2 shapeCasts_S3200000_S25000x128 i)
        (shapeCast S25000x128 a3 shapeCasts_S3200000_S25000x128 i))
      = fun e => f (a0 e) (a1 e) (a2 e) (a3 e) := by
  funext e
  show f (shapeCast S3200000 (shapeCast S25000x128 a0 shapeCasts_S3200000_S25000x128) shapeCasts_S25000x128_S3200000 e)
      (shapeCast S3200000 (shapeCast S25000x128 a1 shapeCasts_S3200000_S25000x128) shapeCasts_S25000x128_S3200000 e)
      (shapeCast S3200000 (shapeCast S25000x128 a2 shapeCasts_S3200000_S25000x128) shapeCasts_S25000x128_S3200000 e)
      (shapeCast S3200000 (shapeCast S25000x128 a3 shapeCasts_S3200000_S25000x128) shapeCasts_S25000x128_S3200000 e) = _
  rw [shapeCast_shapeCast, shapeCast_shapeCast, shapeCast_shapeCast, shapeCast_shapeCast]

/-- An edge's first message component from its endpoints' coordinates is component 0 of its message. -/
theorem edgeX_msg (x : S100000x2.Idx → EReal) (s t : BitVec 32) :
    edgeX (x (ix2 (node s) (0 : Fin 2))) (x (ix2 (node s) (1 : Fin 2))) (x (ix2 (node t) (0 : Fin 2)))
      (x (ix2 (node t) (1 : Fin 2))) = msg x s t 0 := rfl

/-- The second is component 1. -/
theorem edgeY_msg (x : S100000x2.Idx → EReal) (s t : BitVec 32) :
    edgeY (x (ix2 (node s) (0 : Fin 2))) (x (ix2 (node s) (1 : Fin 2))) (x (ix2 (node t) (0 : Fin 2)))
      (x (ix2 (node t) (1 : Fin 2))) = msg x s t 1 := rfl

/-- The region's first result array, laid back flat, holds at edge e component 0 of its message. -/
theorem flat_slabX_apply (x : S100000x2.Idx → EReal) (s t : S3200000.Idx → BitVec 32) (e : Fin 3200000) :
    flat (slabX (staged (column0 x) s) (staged (column1 x) s) (staged (column0 x) t) (staged (column1 x) t)) (ix1 e)
      = msg x (s (ix1 e)) (t (ix1 e)) 0 := by
  refine (congrFun (flat_entrywise edgeX (picked (column0 x) s) (picked (column1 x) s) (picked (column0 x) t)
    (picked (column1 x) t)) (ix1 e)).trans ?_
  show edgeX (picked (column0 x) s (ix1 e)) (picked (column1 x) s (ix1 e)) (picked (column0 x) t (ix1 e))
    (picked (column1 x) t (ix1 e)) = _
  rw [picked_apply, picked_apply, picked_apply, picked_apply, column0_apply, column0_apply, column1_apply, column1_apply]
  exact edgeX_msg x _ _

/-- The second holds component 1. -/
theorem flat_slabY_apply (x : S100000x2.Idx → EReal) (s t : S3200000.Idx → BitVec 32) (e : Fin 3200000) :
    flat (slabY (staged (column0 x) s) (staged (column1 x) s) (staged (column0 x) t) (staged (column1 x) t)) (ix1 e)
      = msg x (s (ix1 e)) (t (ix1 e)) 1 := by
  refine (congrFun (flat_entrywise edgeY (picked (column0 x) s) (picked (column1 x) s) (picked (column0 x) t)
    (picked (column1 x) t)) (ix1 e)).trans ?_
  show edgeY (picked (column0 x) s (ix1 e)) (picked (column1 x) s (ix1 e)) (picked (column0 x) t (ix1 e))
    (picked (column1 x) t (ix1 e)) = _
  rw [picked_apply, picked_apply, picked_apply, picked_apply, column0_apply, column0_apply, column1_apply, column1_apply]
  exact edgeY_msg x _ _

/-- The kernel program's scatters have the dimension numbers of accumulating entries by a one-column table. -/
theorem scatter_dims : scatter_S100000_S3200000x1_S3200000_n_0_0_1
    = addDims1 100000 3200000 scatter_S100000_S3200000x1_S3200000_n_0_0_1_wf := rfl

/-- The accumulations start from the zero word at every slot. -/
theorem zeros_apply (i : S100000.Idx) :
    broadcastInDim S100000 ![] bcast_S_S100000 (constant (F := Ideal) S_ .f32 0x00000000#32) i
      = Ideal.ofBits .f32 0x00000000#32 := rfl

/-- The accumulation at slot p: zero plus the entries of the edges whose word is p. -/
theorem summed_apply (a3 : S3200000.Idx → BitVec 32) (u : S3200000.Idx → EReal) (p : Fin 100000) :
    summed a3 u (ix1 p)
      = Ideal.ofBits .f32 0x00000000#32 + ∑ e : Fin 3200000, if (a3 (ix1 e)).toInt = (p.val : ℤ) then u (ix1 e) else 0 := by
  unfold summed
  rw [hostScatterAdd_ideal, scatter_dims, scatterAdd1_apply]
  refine congrArg₂ (· + ·) (zeros_apply _) (Finset.sum_congr rfl fun e _ => ?_)
  rw [broadcastInDim_apply _ bcast_S3200000_S3200000x1_0 a3 (ix2 e (0 : Fin 1)) (ix1 e) (fun a => by match a with | ⟨0, _⟩ => show e.val = if (3200000 : Nat) = 1 then 0 else e.val; rw [if_neg (by decide)])]

/-- A one-column array at (p, 0). -/
theorem asColumn_apply (y : S100000.Idx → EReal) (p : Fin 100000) : asColumn y (ix2 p (0 : Fin 1)) = y (ix1 p) := by
  unfold asColumn
  exact broadcastInDim_apply _ bcast_S100000_S100000x1_0 y (ix2 p (0 : Fin 1)) (ix1 p) (fun a => by
    match a with
    | ⟨0, _⟩ => show p.val = if (100000 : Nat) = 1 then 0 else p.val; rw [if_neg (by decide)])

/-- The word of a tenth, read anywhere. -/
theorem tenth_apply (i : S100000x2.Idx) : tenth i = Ideal.ofBits .f32 0x3DCCCCCD#32 := rfl

/-- Column 0 of two arrays set side by side is the first. -/
theorem sideBySide_apply0 (y0 y1 : S100000.Idx → EReal) (p : Fin 100000) :
    sideBySide y0 y1 (ix2 p (0 : Fin 2)) = y0 (ix1 p) := by
  unfold sideBySide
  rw [concatenate_pair_apply_left (1 : Fin S100000x2.rank) (asColumn y0) (asColumn y1)
    concatenates_S100000x1_S100000x1_S100000x2_d1 (ix2 p (0 : Fin 2)) rfl (ix2 p (0 : Fin 1)) (fun b => by
      match b with
      | ⟨0, _⟩ => rfl
      | ⟨1, _⟩ => rfl)]
  exact asColumn_apply y0 p

/-- Column 1 is the second. -/
theorem sideBySide_apply1 (y0 y1 : S100000.Idx → EReal) (p : Fin 100000) :
    sideBySide y0 y1 (ix2 p (1 : Fin 2)) = y1 (ix1 p) := by
  unfold sideBySide
  rw [concatenate_pair_apply_right (1 : Fin S100000x2.rank) (asColumn y0) (asColumn y1)
    concatenates_S100000x1_S100000x1_S100000x2_d1 (ix2 p (1 : Fin 2)) rfl rfl (ix2 p (0 : Fin 1)) (fun b hb => by
      match b with
      | ⟨0, _⟩ => rfl
      | ⟨1, _⟩ => exact absurd rfl hb) rfl]
  exact asColumn_apply y1 p

/-- The tail at (p, 0): the first accumulation at p, less a tenth of the velocity. -/
theorem tail_apply0 (a3 : S3200000.Idx → BitVec 32) (a1 : S100000x2.Idx → EReal) (o0 o1 : S25000x128.Idx → EReal)
    (p : Fin 100000) :
    tail a3 a1 o0 o1 (ix2 p (0 : Fin 2))
      = summed a3 (flat o0) (ix1 p) - Ideal.ofBits .f32 0x3DCCCCCD#32 * a1 (ix2 p (0 : Fin 2)) := by
  unfold tail
  rw [subf_apply, mulf_apply, sideBySide_apply0, tenth_apply]

/-- The tail at (p, 1): the second accumulation at p, less a tenth of the velocity. -/
theorem tail_apply1 (a3 : S3200000.Idx → BitVec 32) (a1 : S100000x2.Idx → EReal) (o0 o1 : S25000x128.Idx → EReal)
    (p : Fin 100000) :
    tail a3 a1 o0 o1 (ix2 p (1 : Fin 2))
      = summed a3 (flat o1) (ix1 p) - Ideal.ofBits .f32 0x3DCCCCCD#32 * a1 (ix2 p (1 : Fin 2)) := by
  unfold tail
  rw [subf_apply, mulf_apply, sideBySide_apply1, tenth_apply]

/-! ## The result -/

/-- The tail of the region's two message arrays, over the picked and laid-out columns, is the springs' result. -/
theorem tail_is_accel (x v : S100000x2.Idx → EReal) (s t : S3200000.Idx → BitVec 32) :
    tail t v (slabX (staged (column0 x) s) (staged (column1 x) s) (staged (column0 x) t) (staged (column1 x) t))
        (slabY (staged (column0 x) s) (staged (column1 x) s) (staged (column0 x) t) (staged (column1 x) t))
      = accel x v s t := by
  funext i
  obtain ⟨p, d, rfl⟩ : ∃ (p : Fin 100000) (d : Fin 2), i = ix2 p d := ⟨i 0, i 1, eq_ix2 i⟩
  have hsum : ∀ (d : Fin 2) (u : S3200000.Idx → EReal), (∀ e, u (ix1 e) = msg x (s (ix1 e)) (t (ix1 e)) d) →
      (∑ e : Fin 3200000, if (t (ix1 e)).toInt = (p.val : ℤ) then u (ix1 e) else 0)
        = ∑ e : Fin 3200000, if (t (ix1 e)).toInt = (p.val : ℤ) then msg x (s (ix1 e)) (t (ix1 e)) d else 0 :=
    fun d u h => Finset.sum_congr rfl fun e _ => by rw [h e]
  rw [accel_apply]
  by_cases hd : d = 0
  · subst hd
    rw [tail_apply0, summed_apply, hsum 0 _ (flat_slabX_apply x s t)]
  · have h1 : d = 1 := Fin.ext (by
      have := d.isLt
      have h0 : d.val ≠ 0 := fun h => hd (Fin.ext h)
      show d.val = 1
      omega)
    subst h1
    rw [tail_apply1, summed_apply, hsum 1 _ (flat_slabY_apply x s t)]

end Cert.KernelIdeal.Layout

end
-- ==== Proof.KernelAccel.lean ====
/-
  The kernel program computes the springs' result.

  The region finds in its four input arrays the picked and laid-out columns (the host lines before it, run); it leaves
  in its two result arrays the two message components entry by entry; and the host lines after it, run from what the
  region leaves, put in the result buffer their function of the destination words, the velocities and those two arrays.
  That function of those arrays is the springs' result.
-/
import proofs.«415988_j85229331022334_3_alg».proof.Proof.KernelLayout
import Idealize.ShloMosaic.Lib.StableHlo.Run

set_option maxRecDepth 16384

noncomputable section

namespace Cert.KernelIdeal.Accel

open Cert.KernelIdeal Cert.KernelIdeal.Gen Cert.KernelIdeal.EdgeSlabs Cert.KernelIdeal.Layout
open Idealize.ShloMosaic Idealize.ShloMosaic.TcCoe Idealize.SL.Sem Idealize.ShloMosaic.StableHlo
open Cert.Springs

variable (m : (ℓ : Loc nD τ sig) → Buf (Elt Ideal) ℓ) (ρ : Dev nD → PrngReg)

/-! ## The host lines before the region, run -/

set_option maxHeartbeats 4000000 in
/-- The region finds the source words' column-0 entries in its first input array, … -/
theorem V_v11 (c : Dev nD) : (V m c main_v11 : S25000x128.Idx → EReal) = staged (column0 (m ((c.tc : Thread nD τ).loc main_arg0))) (m ((c.tc : Thread nD τ).loc main_arg2)) := by
  show StableHlo.after hostOps0 (fun b => m (c, b)) (Proc.devRef .tc main_v11) = _
  after_results
  rfl

set_option maxHeartbeats 4000000 in
/-- … their column-1 entries in the second, … -/
theorem V_v19 (c : Dev nD) : (V m c main_v19 : S25000x128.Idx → EReal) = staged (column1 (m ((c.tc : Thread nD τ).loc main_arg0))) (m ((c.tc : Thread nD τ).loc main_arg2)) := by
  show StableHlo.after hostOps0 (fun b => m (c, b)) (Proc.devRef .tc main_v19) = _
  after_results
  rfl

set_option maxHeartbeats 4000000 in
/-- … the destination words' column-0 entries in the third, … -/
theorem V_v27 (c : Dev nD) : (V m c main_v27 : S25000x128.Idx → EReal) = staged (column0 (m ((c.tc : Thread nD τ).loc main_arg0))) (m ((c.tc : Thread nD τ).loc main_arg3)) := by
  show StableHlo.after hostOps0 (fun b => m (c, b)) (Proc.devRef .tc main_v27) = _
  after_results
  rfl

set_option maxHeartbeats 4000000 in
/-- … and their column-1 entries in the fourth. -/
theorem V_v35 (c : Dev nD) : (V m c main_v35 : S25000x128.Idx → EReal) = staged (column1 (m ((c.tc : Thread nD τ).loc main_arg0))) (m ((c.tc : Thread nD τ).loc main_arg3)) := by
  show StableHlo.after hostOps0 (fun b => m (c, b)) (Proc.devRef .tc main_v35) = _
  after_results
  rfl

/-! ## The host lines after the region, run -/

set_option maxHeartbeats 4000000 in
/-- Run from any contents W, the lines after the region leave in the result buffer their function of what W
    holds at the destination words, the velocities and the region's two result arrays. -/
theorem tail_eq (W : Valuation τ sig (Elt Ideal)) :
    (StableHlo.after hostOps1 W (Proc.devRef .tc main_v50) : S100000x2.Idx → EReal)
      = tail (W (Proc.devRef .tc main_arg3)) (W (Proc.devRef .tc main_arg1)) (W (Proc.devRef .tc main_v36_0))
          (W (Proc.devRef .tc main_v36_1)) := by
  after_results
  rfl

set_option maxHeartbeats 4000000 in
/-- After the whole program the result buffer holds the tail's function of the arguments and of the two message
    arrays the region leaves. -/
theorem tail_run (c : Dev nD) :
    (Pipeline.afterTail₀ cfgs (dats m) 0 (V0 m) [hostOps1] c main_v50 : S100000x2.Idx → EReal)
      = tail (m ((c.tc : Thread nD τ).loc main_arg3)) (m ((c.tc : Thread nD τ).loc main_arg1))
          (slabX (V m c main_v11) (V m c main_v19) (V m c main_v27) (V m c main_v35))
          (slabY (V m c main_v11) (V m c main_v19) (V m c main_v27) (V m c main_v35)) := by
  unfold Pipeline.afterTail₀
  simp only [List.flatten_cons, List.flatten_nil, List.append_nil]
  refine (tail_eq _).trans ?_
  have h3 := (Pipeline.withArrays_of_ne (cfgs 0).spec c (V0 m c) (fun w => (dats m 0 c).arrAt w (cfgs 0).N) main_arg3
    (by exact (by decide : ∀ w, Pipeline.arrRef spec0 w ≠ main_arg3))).trans (V_main_arg3 m c)
  have h1 := (Pipeline.withArrays_of_ne (cfgs 0).spec c (V0 m c) (fun w => (dats m 0 c).arrAt w (cfgs 0).N) main_arg1
    (by exact (by decide : ∀ w, Pipeline.arrRef spec0 w ≠ main_arg1))).trans (V_main_arg1 m c)
  have ho0 := (Pipeline.withArrays_arr spec0 launch0.win.arr_inj c (V0 m c) (fun w => (dats m 0 c).arrAt w (cfgs 0).N) 4).trans
    (final4 m c)
  have ho1 := (Pipeline.withArrays_arr spec0 launch0.win.arr_inj c (V0 m c) (fun w => (dats m 0 c).arrAt w (cfgs 0).N) 5).trans
    (final5 m c)
  exact congr (congr (congr (congrArg tail h3) h1) ho0) ho1

/-! ## The result -/

/-- After the whole program the result buffer holds the springs' result of the four arguments. -/
theorem result_eq (c : Dev nD) :
    (Pipeline.afterTail₀ cfgs (dats m) 0 (V0 m) [hostOps1] c main_v50 : S100000x2.Idx → EReal)
      = accel (m ((c.tc : Thread nD τ).loc main_arg0)) (m ((c.tc : Thread nD τ).loc main_arg1)) (m ((c.tc : Thread nD τ).loc main_arg2)) (m ((c.tc : Thread nD τ).loc main_arg3)) := by
  rw [tail_run, V_v11, V_v19, V_v27, V_v35]
  exact tail_is_accel _ _ _ _

/-- Every weakly fair execution of the kernel program ends with the result buffer at the springs' result of the
    arguments, and the arguments as launched. -/
theorem run : θ_run defs (onTc (τ := τ) (main (F := Ideal))) ⟨m, fun _ => 0, ρ⟩ fun r => ∀ c : Dev nD,
      r.2.mem ((c.tc : Thread nD τ).loc main_v50) = accel (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v50 (Pipeline.mem_restRefs_of main_v50 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Accel

end
-- ==== Proof.ReferenceAccel.lean ====
/-
  The reference computes the springs' result.

  Its last stage, read at node p and component d, stage by stage: the scatter of message rows is the zero row plus
  the sum over the edges whose destination word is p of the message's component d; a message row is the force
  (-2 (r - 1), r the length of the displacement row) times the displacement row over max r eps; the length is the
  square root of the sum of the row's two squares from zero; a displacement row is the gathered destination row less
  the gathered source row; and a gathered row is the position row of the node the word names (wrapped, clamped).
-/
import proofs.«415988_j85229331022334_3_alg».proof.Proof.Gen.ReferenceIdeal.Read
import proofs.«415988_j85229331022334_3_alg».proof.Proof.Springs
import proofs.«415988_j85229331022334_3_alg».proof.Proof.LibEdgeTable

noncomputable section

open scoped BigOperators

namespace Cert.ReferenceIdeal.Accel

open Cert.ReferenceIdeal Cert.ReferenceIdeal.Gen Cert.ReferenceIdeal.Read
open Idealize.ShloMosaic Idealize.ShloMosaic.ValueIdx Cert.Springs Cert.LibEdgeTable

variable (x0 x1 : (⟨S100000x2, .f32⟩ : BufTy).Contents (Elt Ideal)) (x2 x3 : (⟨S3200000, .i32⟩ : BufTy).Contents (Elt Ideal))

/-! ## Indices -/

theorem idx_v5 (e : Fin 3200000) : idx_main_v5 (ix2 e (0 : Fin 1)) = ix1 e :=
  funext fun a => Fin.ext (by match a with | ⟨0, _⟩ => rfl)
theorem idx_v12 (e : Fin 3200000) : idx_main_v12 (ix2 e (0 : Fin 1)) = ix1 e :=
  funext fun a => Fin.ext (by match a with | ⟨0, _⟩ => rfl)
theorem idx_v27 (e : Fin 3200000) : idx_main_v27 (ix2 e (0 : Fin 1)) = ix1 e :=
  funext fun a => Fin.ext (by match a with | ⟨0, _⟩ => rfl)
theorem idx_call0_v2 (e : Fin 3200000) : idx_main_call0_v2 (ix2 e (0 : Fin 1)) = ix1 e :=
  funext fun a => Fin.ext (by match a with | ⟨0, _⟩ => rfl)
theorem idx_call0_v1 (e : Fin 3200000) (k : Fin 2) : idx_main_call0_v1 (ix1 e) k = ix2 e k :=
  funext fun a => Fin.ext (by match a with | ⟨0, _⟩ => rfl | ⟨1, _⟩ => rfl)
theorem idx_v18 (e : Fin 3200000) (d : Fin 2) : idx_main_v18 (ix2 e d) = ix2 e (0 : Fin 1) :=
  funext fun a => Fin.ext (by match a with | ⟨0, _⟩ => rfl | ⟨1, _⟩ => rfl)
theorem idx_v24 (e : Fin 3200000) (d : Fin 2) : idx_main_v24 (ix2 e d) = ix2 e (0 : Fin 1) :=
  funext fun a => Fin.ext (by match a with | ⟨0, _⟩ => rfl | ⟨1, _⟩ => rfl)

/-! ## The table words, wrapped -/

/-- The destination table's word e, as the gather reads it: wrapped. -/
theorem wrapped_dst (e : Fin 3200000) : val_main_v5 (F := Ideal) x3 (ix2 e (0 : Fin 1)) = wrapWord (x3 (ix1 e)) := by
  rw [val_main_v5_apply, idx_v5]
  rfl

/-- The source table's word e, wrapped. -/
theorem wrapped_src (e : Fin 3200000) : val_main_v12 (F := Ideal) x2 (ix2 e (0 : Fin 1)) = wrapWord (x2 (ix1 e)) := by
  rw [val_main_v12_apply, idx_v12]
  rfl

/-! ## The gathered rows and the displacement -/

/-- Row e of the first gather is the position row of the node destination word e names. -/
theorem dst_row (e : Fin 3200000) (k : Fin 2) :
    val_main_v6 (F := Ideal) x0 x3 (ix2 e k) = x0 (ix2 (node (x3 (ix1 e))) k) := by
  show Host.gather (rowsDims 100000 2 3200000 gather_S100000x2_S3200000x1_S3200000x2_1_0_n_n_0_1_12_wf) x0
    (val_main_v5 (F := Ideal) x3) (ix2 e k) = _
  rw [gather_rows_apply (by decide)]
  refine congrArg x0 (congrArg (fun r => ix2 r k) (Fin.ext ?_))
  show min (val_main_v5 (F := Ideal) x3 (ix2 e (0 : Fin 1))).toInt.toNat (100000 - 1) = (node (x3 (ix1 e))).val
  rw [wrapped_dst]
  rfl

/-- Row e of the second gather is the position row of the node source word e names. -/
theorem src_row (e : Fin 3200000) (k : Fin 2) :
    val_main_v13 (F := Ideal) x0 x2 (ix2 e k) = x0 (ix2 (node (x2 (ix1 e))) k) := by
  show Host.gather (rowsDims 100000 2 3200000 gather_S100000x2_S3200000x1_S3200000x2_1_0_n_n_0_1_12_wf) x0
    (val_main_v12 (F := Ideal) x2) (ix2 e k) = _
  rw [gather_rows_apply (by decide)]
  refine congrArg x0 (congrArg (fun r => ix2 r k) (Fin.ext ?_))
  show min (val_main_v12 (F := Ideal) x2 (ix2 e (0 : Fin 1))).toInt.toNat (100000 - 1) = (node (x2 (ix1 e))).val
  rw [wrapped_src]
  rfl

/-- The difference of the two is edge e's displacement. -/
theorem disp_row (e : Fin 3200000) (k : Fin 2) :
    val_main_v14 (F := Ideal) x0 x2 x3 (ix2 e k) = disp x0 (x2 (ix1 e)) (x3 (ix1 e)) k := by
  rw [val_main_v14_apply, dst_row, src_row]
  rfl

/-! ## The length and the message -/

/-- The norm of row e is the displacement's length. -/
theorem len_row (e : Fin 3200000) :
    val_main_v15 (F := Ideal) x0 x2 x3 (ix2 e (0 : Fin 1))
      = len (disp x0 (x2 (ix1 e)) (x3 (ix1 e)) 0) (disp x0 (x2 (ix1 e)) (x3 (ix1 e)) 1) := by
  rw [val_main_v15_apply, val_main_call0_v2_apply, idx_call0_v2, val_main_call0_v1_apply]
  simp only [idx_call0_v1, val_main_call0_v0_apply, disp_row]
  exact sqrt_sum_sq (fun k => disp x0 (x2 (ix1 e)) (x3 (ix1 e)) k)

/-- Entry (e, d) of the message array is component d of edge e's message. -/
theorem msg_row (e : Fin 3200000) (d : Fin 2) :
    val_main_v25 (F := Ideal) x0 x2 x3 (ix2 e d) = msg x0 (x2 (ix1 e)) (x3 (ix1 e)) d := by
  rw [val_main_v25_apply, val_main_v24_apply, idx_v24, val_main_v23_apply, val_main_v21_apply, val_main_v19_apply,
    val_main_v18_apply, idx_v18, val_main_v17_apply, disp_row, len_row]
  rfl

/-! ## The result -/

/-- The scatter's operand is the zero word everywhere. -/
theorem zero_row (i : S100000x2.Idx) : val_main_v26 (F := Ideal) i = Ideal.ofBits .f32 0x00000000#32 := rfl

/-- The damping factor is the word of a tenth everywhere. -/
theorem tenth_row (i : S100000x2.Idx) : val_main_v29 (F := Ideal) i = Ideal.ofBits .f32 0x3DCCCCCD#32 := rfl

/-- The reference's scatter has the dimension numbers of accumulating rows by a one-column table. -/
theorem scatter_dims : scatter_S100000x2_S3200000x1_S3200000x2_1_0_0_1
    = addDims2 100000 2 3200000 scatter_S100000x2_S3200000x1_S3200000x2_1_0_0_1_wf := rfl

/-- The scatter at (p, d): zero plus the messages' component d over the edges whose destination word is p. -/
theorem scatter_row (p : Fin 100000) (d : Fin 2) :
    val_main_v28 (F := Ideal) x0 x2 x3 (ix2 p d)
      = Ideal.ofBits .f32 0x00000000#32
        + ∑ e : Fin 3200000, if (x3 (ix1 e)).toInt = (p.val : ℤ) then msg x0 (x2 (ix1 e)) (x3 (ix1 e)) d else 0 := by
  unfold val_main_v28
  rw [hostScatterAdd_ideal, scatter_dims, scatterAdd2_apply]
  refine congrArg₂ (· + ·) (zero_row _) (Finset.sum_congr rfl fun e _ => ?_)
  rw [val_main_v27_apply, idx_v27, msg_row]

/-- The reference's last stage is the springs' result of its four arguments. -/
theorem ref_is_accel : val_main_v31 (F := Ideal) x0 x1 x2 x3 = accel x0 x1 x2 x3 := by
  funext i
  obtain ⟨p, d, rfl⟩ : ∃ (p : Fin 100000) (d : Fin 2), i = ix2 p d := ⟨i 0, i 1, eq_ix2 i⟩
  rw [accel_apply, val_main_v31_apply, val_main_v30_apply, scatter_row, tenth_row]
  rfl

end Cert.ReferenceIdeal.Accel

end
-- ==== Proof.lean ====
/-
  Damped springs on a graph: a kernel program against its reference, equal on the extended reals.

  Both programs take node positions x and velocities v (two [100000, 2] arrays) and two lists of 3200000 words, the
  edges' sources and destinations. A word names a node after wrapping a negative word by the node count and clamping
  into the node list. Per edge, with dr the position of the destination node less that of the source node and r its
  length (the square root of the sum of its two squares), the message is -2 (r - 1) dr / max r eps. Per node p the
  result is the sum of the messages of the edges whose destination word IS p (read signed, neither wrapped nor clamped:
  an edge whose word is outside the node list is dropped), less a tenth of v.

  The reference does this on [3200000, 2] rows: two row gathers, a row-wise norm, and one accumulating scatter of rows.
  The kernel program does it by components: it gathers the x and y columns separately (four entry gathers), lays the
  four lists out in 25000 rows of 128, computes both message components entry by entry in one region of 25 blocks,
  lays the two results back flat, accumulates each with its own scatter, and sets the two sums side by side.

  Both are the one function `Springs.accel` of the arguments. On the extended reals the only algebra needed is that a
  sum from zero of two squares is their sum, and that a sum over the rows' entries (e, d') landing on (p, d) is the sum
  over the edges e landing on p of the entry (e, d): no law that needs finiteness, so the precondition is not opened.
  The idealization rewrote nothing, so the kernel program read on the extended reals is its own text.
-/
import proofs.«415988_j85229331022334_3_alg».proof.Defs
import proofs.«415988_j85229331022334_3_alg».proof.Proof.Gen.Kernel
import proofs.«415988_j85229331022334_3_alg».proof.Proof.Gen.Kernel.Skeleton
import proofs.«415988_j85229331022334_3_alg».proof.Proof.Gen.Kernel.Launch
import proofs.«415988_j85229331022334_3_alg».proof.Proof.Gen.Kernel.Points
import proofs.«415988_j85229331022334_3_alg».proof.Proof.Gen.Kernel.Frame
import proofs.«415988_j85229331022334_3_alg».proof.Proof.Gen.KernelIdeal
import proofs.«415988_j85229331022334_3_alg».proof.Proof.Gen.KernelIdeal.Skeleton
import proofs.«415988_j85229331022334_3_alg».proof.Proof.Gen.KernelIdeal.Launch
import proofs.«415988_j85229331022334_3_alg».proof.Proof.Gen.KernelIdeal.Points
import proofs.«415988_j85229331022334_3_alg».proof.Proof.Gen.KernelIdeal.Frame
import proofs.«415988_j85229331022334_3_alg».proof.Proof.Gen.ReferenceIdeal
import proofs.«415988_j85229331022334_3_alg».proof.Proof.Gen.ReferenceIdeal.Run
import proofs.«415988_j85229331022334_3_alg».proof.Proof.Gen.ReferenceIdeal.Read
import proofs.«415988_j85229331022334_3_alg».proof.Proof.Gen.Pre_finite_inputs
import proofs.«415988_j85229331022334_3_alg».proof.Proof.KernelAccel
import proofs.«415988_j85229331022334_3_alg».proof.Proof.ReferenceAccel
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the springs' result of those arguments. -/
theorem algebraic : Cert.algebraic_KernelIdeal_ReferenceIdeal := by
  intro m ρ m' ρ' _ hagree
  refine ⟨fun c => Cert.Springs.accel (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Accel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.Accel.ref_is_accel, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
